-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x32x32 : Shape := ⟨4, ![64, 512, 32, 32]⟩
abbrev S_ : Shape := ⟨0, ![]⟩

class Facts : Prop where
  bcast_S_S64x512x32x32 : S_.BroadcastsInDim S64x512x32x32 (![] : Fin 0 → Fin S64x512x32x32.rank)
  reducesTo_S64x512x32x32_S_d0_1_2_3 : S64x512x32x32.ReducesTo [0, 1, 2, 3] S_
  h_S_ : 0 < S_.numel

variable [Facts]

def fn {F : FTy → Type} [FloatOps F] (main_arg0 : FVec F S64x512x32x32 .f32) (main_arg1 : FVec F S64x512x32x32 .f32) : IVec S_ 1 :=
  let main_v0 : FVec F S64x512x32x32 .f32 := Host.absf main_arg0
  let main_cst : FVec F S_ .f32 := constant S_ .f32 0x7F800000#32
  let main_v1 : FVec F S64x512x32x32 .f32 := broadcastInDim S64x512x32x32 ![] bcast_S_S64x512x32x32 main_cst
  let main_v2 : IVec S64x512x32x32 1 := cmpf .olt main_v0 main_v1
  let main_c : IVec S_ 1 := constantI S_ 1 1#1
  let main_v3 : IVec S_ 1 := (fun x v => Host.reduce IntOp.andi x v reducesTo_S64x512x32x32_S_d0_1_2_3 h_S_) main_v2 main_c
  let main_v4 : FVec F S64x512x32x32 .f32 := Host.absf main_arg1
  let main_cst_0 : FVec F S_ .f32 := constant S_ .f32 0x7F800000#32
  let main_v5 : FVec F S64x512x32x32 .f32 := broadcastInDim S64x512x32x32 ![] bcast_S_S64x512x32x32 main_cst_0
  let main_v6 : IVec S64x512x32x32 1 := cmpf .olt main_v4 main_v5
  let main_c_1 : IVec S_ 1 := constantI S_ 1 1#1
  let main_v7 : IVec S_ 1 := (fun x v => Host.reduce IntOp.andi x v reducesTo_S64x512x32x32_S_d0_1_2_3 h_S_) main_v6 main_c_1
  let main_v8 : IVec S_ 1 := andi main_v3 main_v7
  main_v8
-- ==== Kernel.lean ====
abbrev S64x512x32x32 : Shape := ⟨4, ![64, 512, 32, 32]⟩
abbrev S64x512x1024 : Shape := ⟨3, ![64, 512, 1024]⟩
abbrev S64x8x128 : Shape := ⟨3, ![64, 8, 128]⟩
abbrev S1x512x1024 : Shape := ⟨3, ![1, 512, 1024]⟩
abbrev S1x8x128 : Shape := ⟨3, ![1, 8, 128]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1 : Shape := ⟨1, ![1]⟩
abbrev S1x1 : Shape := ⟨2, ![1, 1]⟩
abbrev S8x128 : Shape := ⟨2, ![8, 128]⟩
abbrev S64x1x1 : Shape := ⟨3, ![64, 1, 1]⟩
abbrev S64 : Shape := ⟨1, ![64]⟩
abbrev S_ : Shape := ⟨0, ![]⟩

abbrev nBuf : Space → Nat
  | .hbm => 27
  | .vmem => 10
  | .smem => 0
  | _ => 0

abbrev bufTy : (tb : Table) → Fin (tcTables nBuf tb) → BufTy
  | .hbm, ⟨0, _⟩ => ⟨S64x512x32x32, .f32⟩
  | .hbm, ⟨1, _⟩ => ⟨S64x512x32x32, .f32⟩
  | .hbm, ⟨2, _⟩ => ⟨S64x512x1024, .f32⟩
  | .hbm, ⟨3, _⟩ => ⟨S64x512x1024, .f32⟩
  | .hbm, ⟨4, _⟩ => ⟨S64x8x128, .f32⟩
  | .hbm, ⟨5, _⟩ => ⟨S64x8x128, .f32⟩
  | .hbm, ⟨6, _⟩ => ⟨S64x8x128, .f32⟩
  | .hbm, ⟨7, _⟩ => ⟨S64x1x1, .f32⟩
  | .hbm, ⟨8, _⟩ => ⟨S64, .f32⟩
  | .hbm, ⟨9, _⟩ => ⟨S_, .f32⟩
  | .hbm, ⟨10, _⟩ => ⟨S_, .f32⟩
  | .hbm, ⟨11, _⟩ => ⟨S64x1x1, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S64x1x1, .f32⟩
  | .hbm, ⟨16, _⟩ => ⟨S64, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x8x128, .f32⟩
  | .local _ .vmem, ⟨5, _⟩ => ⟨S1x8x128, .f32⟩
  | .local _ .vmem, ⟨6, _⟩ => ⟨S1x8x128, .f32⟩
  | .local _ .vmem, ⟨7, _⟩ => ⟨S1x8x128, .f32⟩
  | .local _ .vmem, ⟨8, _⟩ => ⟨S1x8x128, .f32⟩
  | .local _ .vmem, ⟨9, _⟩ => ⟨S1x8x128, .f32⟩
  | _, _ => ⟨S64x512x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S64x512x32x32_S64x512x1024 : S64x512x32x32.ShapeCasts S64x512x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  reduces_S512x1024_S512 : S512x1024.Reduces [1] S512
  shapeCasts_S512_S512x1 : S512.ShapeCasts S512x1
  broadcasts_S512x1_S512x1024 : S512x1.Broadcasts S512x1024
  bitsLt_bf16_f32 : FTy.bits .bf16 < FTy.bits .f32
  transposes_S512x1024_p1_0_S1024x512 : S512x1024.Transposes [1, 0] S1024x512
  reduces_S512x512_S512 : S512x512.Reduces [1] S512
  reduces_S512x1_S1 : S512x1.Reduces [0] S1
  shapeCasts_S1_S1x1 : S1.ShapeCasts S1x1
  shapeCasts_S1x1_S1x1 : S1x1.ShapeCasts S1x1
  broadcasts_S1x1_S8x128 : S1x1.Broadcasts S8x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  slices_S64x8x128_S64x1x1_0_0_0 : S64x8x128.Slices ![0, 0, 0] S64x1x1
  shapeCasts_S64x1x1_S64 : S64x1x1.ShapeCasts S64
  reducesTo_S64_S_d0 : S64.ReducesTo [0] S_
  h_S_ : 0 < S_.numel
  dot_S512x1024_S1024x512_S512x512_1_0_0_1_n_n_wf : DotDims.WF S512x1024 S1024x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S64x512x1024.size a
  hwx0_0 : ∀ i : grid0.Coords, EltTy.bits .f32 = 32 ∨ (Rect.block (s := S64x512x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S64x512x1024.size a
  hwx0_1 : ∀ i : grid0.Coords, EltTy.bits .f32 = 32 ∨ (Rect.block (s := S64x512x1024) S1x512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S64x8x128.size a
  hwx0_2 : ∀ i : grid0.Coords, EltTy.bits .f32 = 32 ∨ (Rect.block (s := S64x8x128) S1x8x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S64x8x128.size a
  hwx0_3 : ∀ i : grid0.Coords, EltTy.bits .f32 = 32 ∨ (Rect.block (s := S64x8x128) S1x8x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S64x8x128.size a
  hwx0_4 : ∀ i : grid0.Coords, EltTy.bits .f32 = 32 ∨ (Rect.block (s := S64x8x128) S1x8x128.size (cc0_transform_4 i) (hinb0_4 i)).WholeWords (EltTy.packing .f32)

variable [Facts₀]

def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf

abbrev win0_0 : Pipeline.Window sig grid0 :=
  Pipeline.Window.ofSpec (Memref.whole main_v0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x8x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x8x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S1x8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x512x32x32 : Shape := ⟨4, ![64, 512, 32, 32]⟩
abbrev S64x512x1024 : Shape := ⟨3, ![64, 512, 1024]⟩
abbrev S_ : Shape := ⟨0, ![]⟩
abbrev S64x512 : Shape := ⟨2, ![64, 512]⟩
abbrev S64x512x1 : Shape := ⟨3, ![64, 512, 1]⟩
abbrev S64x512x512 : Shape := ⟨3, ![64, 512, 512]⟩

abbrev nBuf : Space → Nat
  | .hbm => 48
  | .vmem => 0
  | .smem => 0
  | _ => 0

abbrev bufTy : (tb : Table) → Fin (tcTables nBuf tb) → BufTy
  | .hbm, ⟨0, _⟩ => ⟨S64x512x32x32, .f32⟩
  | .hbm, ⟨1, _⟩ => ⟨S64x512x32x32, .f32⟩
  | .hbm, ⟨2, _⟩ => ⟨S64x512x1024, .f32⟩
  | .hbm, ⟨3, _⟩ => ⟨S64x512x1024, .f32⟩
  | .hbm, ⟨4, _⟩ => ⟨S_, .f32⟩
  | .hbm, ⟨5, _⟩ => ⟨S64x512, .f32⟩
  | .hbm, ⟨6, _⟩ => ⟨S64x512x1, .f32⟩
  | .hbm, ⟨7, _⟩ => ⟨S64x512x1, .f32⟩
  | .hbm, ⟨8, _⟩ => ⟨S_, .f32⟩
  | .hbm, ⟨9, _⟩ => ⟨S64x512x1, .f32⟩
  | .hbm, ⟨10, _⟩ => ⟨S64x512x1, .f32⟩
  | .hbm, ⟨11, _⟩ => ⟨S64x512x1024, .f32⟩
  | .hbm, ⟨12, _⟩ => ⟨S64x512x1024, .f32⟩
  | .hbm, ⟨13, _⟩ => ⟨S64x512x1024, .f32⟩
  | .hbm, ⟨14, _⟩ => ⟨S64x512x1024, .f32⟩
  | .hbm, ⟨15, _⟩ => ⟨S_, .f32⟩
  | .hbm, ⟨16, _⟩ => ⟨S64x512, .f32⟩
  | .hbm, ⟨17, _⟩ => ⟨S64x512x1, .f32⟩
  | .hbm, ⟨18, _⟩ => ⟨S64x512x1, .f32⟩
  | .hbm, ⟨19, _⟩ => ⟨S_, .f32⟩
  | .hbm, ⟨20, _⟩ => ⟨S64x512x1, .f32⟩
  | .hbm, ⟨21, _⟩ => ⟨S64x512x1, .f32⟩
  | .hbm, ⟨22, _⟩ => ⟨S64x512x1024, .f32⟩
  | .hbm, ⟨23, _⟩ => ⟨S64x512x1024, .f32⟩
  | .hbm, ⟨24, _⟩ => ⟨S64x512x512, .f32⟩
  | .hbm, ⟨25, _⟩ => ⟨S64x512x512, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S64x512x512, .f32⟩
  | .hbm, ⟨31, _⟩ => ⟨S64x512x512, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S64x512x512, .f32⟩
  | .hbm, ⟨38, _⟩ => ⟨S64x512x512, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | _, _ => ⟨S64x512x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_5 : Ref sig .tc := ⟨.hbm, 32, rfl⟩
abbrev main_v24 : Ref sig .tc := ⟨.hbm, 33, rfl⟩
abbrev main_cst_6 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_7 : Ref sig .tc := ⟨.hbm, 39, rfl⟩
abbrev main_v29 : Ref sig .tc := ⟨.hbm, 40, rfl⟩
abbrev main_cst_8 : Ref sig .tc := ⟨.hbm, 41, rfl⟩
abbrev main_v30 : Ref sig .tc := ⟨.hbm, 42, rfl⟩
abbrev main_cst_9 : Ref sig .tc := ⟨.hbm, 43, rfl⟩
abbrev main_v31 : Ref sig .tc := ⟨.hbm, 44, rfl⟩
abbrev main_v32 : Ref sig .tc := ⟨.hbm, 45, rfl⟩
abbrev main_cst_10 : Ref sig .tc := ⟨.hbm, 46, rfl⟩
abbrev main_v33 : Ref sig .tc := ⟨.hbm, 47, rfl⟩

abbrev nD : Nat := 1
abbrev τ : Topo := Topo.v7x

variable {F : FTy → Type} [FloatOps F]

class Facts₀ : Prop where
  shapeCasts_S64x512x32x32_S64x512x1024 : S64x512x32x32.ShapeCasts S64x512x1024
  reducesTo_S64x512x1024_S64x512_d2 : S64x512x1024.ReducesTo [2] S64x512
  h_S_ : 0 < S_.numel
  bcast_S64x512_S64x512x1_0_1 : S64x512.BroadcastsInDim S64x512x1 (![0, 1] : Fin 2 → Fin S64x512x1.rank)
  bcast_S_S64x512x1 : S_.BroadcastsInDim S64x512x1 (![] : Fin 0 → Fin S64x512x1.rank)
  bcast_S64x512x1_S64x512x1024_0_1_2 : S64x512x1.BroadcastsInDim S64x512x1024 (![0, 1, 2] : Fin 3 → Fin S64x512x1024.rank)
  reducesTo_S64x512x512_S_d0_1_2 : S64x512x512.ReducesTo [0, 1, 2] S_
  dot_S64x512x1024_S64x512x1024_S64x512x512_2_2_1_1_0_0_wf : DotDims.WF S64x512x1024 S64x512x1024 S64x512x512 [2] [2] [1] [1] [0] [0]

variable [Facts₀]

def dot_S64x512x1024_S64x512x1024_S64x512x512_2_2_1_1_0_0 : DotDims S64x512x1024 S64x512x1024 S64x512x512 where
  lhsContracting := [2]
  rhsContracting := [2]
  lhsNonContracting := [1]
  rhsNonContracting := [1]
  lhsBatch := [0]
  rhsBatch := [0]
  wf := dot_S64x512x1024_S64x512x1024_S64x512x512_2_2_1_1_0_0_wf

class Facts : Prop extends Facts₀ where

variable [Facts]
-- ==== Proof.GramEnergy.lean ====
/-
  The mathematics both programs compute, on the extended reals.

  A matrix of 512 rows and 1024 columns has each row divided by its Euclidean length, the length floored at a small
  positive constant. For two such matrices the Gram matrix pairs every normalized row of the first with every normalized
  row of the second by their inner product; its ENERGY is the sum of the squares of its 512 x 512 entries. A stack of 64
  matrices contributes the sum of its members' energies (the TOTAL).

  With T the stack read from the second argument and S the one from the first, one program returns
      1 * ((total T T + total S S - 2 * total T S) / 2^24)
  and the other
      1 * ((total T T / 2^24 + total S S / 2^24) - 2 * (total T S / 2^24)).
  Dividing by 2^24 is multiplying by the non-negative real 2^-24, and multiplication by a non-negative real distributes
  over sums and differences of extended reals whatever their values, infinite ones included: the two agree with no
  finiteness assumption.
-/
import Idealize.ShloMosaic.PureOps.Ideal
import Idealize.ShloMosaic.PureOps.Ideal.Laws
import Idealize.ShloMosaic.Lib.ValueIdx

noncomputable section

open scoped BigOperators

namespace Cert.Gram

open Idealize.ShloMosaic Idealize.ShloMosaic.ValueIdx

/-- A 512 x 1024 matrix of extended reals, by row and column. -/
abbrev Mat := Fin 512 → Fin 1024 → EReal

/-- A stack of 64 such matrices as one rank-3 array. -/
abbrev Stack := (⟨3, ![64, 512, 1024]⟩ : Shape).Idx → EReal

/-- The floor under a row's length. -/
def lenFloor : EReal := Ideal.ofBits .f32 0x2B8CBCCC#32

/-- A row's Euclidean length, floored. -/
def rowLen (M : Mat) (c : Fin 512) : EReal := max (Ideal.sqrt (∑ n : Fin 1024, M c n * M c n)) lenFloor

/-- The matrix with every row divided by its floored length. -/
def unitRow (M : Mat) (c : Fin 512) (n : Fin 1024) : EReal := Ideal.div (M c n) (rowLen M c)

/-- The inner product of normalized row `c` of `M` with normalized row `d` of `N`. -/
def gram (M N : Mat) (c d : Fin 512) : EReal := ∑ n : Fin 1024, unitRow M c n * unitRow N d n

/-- The sum of the squared entries of the Gram matrix, rows outermost. -/
def energy (M N : Mat) : EReal := ∑ c : Fin 512, ∑ d : Fin 512, gram M N c d * gram M N c d

/-- Member `b` of a stack. -/
def slab (x : Stack) (b : Fin 64) : Mat := fun c n => x (ix3 b c n)

/-- The energies of the 64 members, added. -/
def total (x y : Stack) : EReal := ∑ b : Fin 64, energy (slab x b) (slab y b)

/-- The constants of the closing arithmetic, as the patterns both programs spell. -/
def cOne : EReal := Ideal.ofBits .f32 0x3F800000#32
def cTwo : EReal := Ideal.ofBits .f32 0x40000000#32
def cCount : EReal := Ideal.ofBits .f32 0x4B800000#32

/-- The count of Gram entries, 64 * 512 * 512 = 2^24, as a real. -/
theorem cCount_eq : cCount = ((16777216 : ℝ) : EReal) := by
  unfold cCount
  simp [Ideal.ofBits, Ideal.ieee, -EReal.coe_mul]; norm_num

/-- Combine first, divide once. -/
def lossDivideOnce (s t : Stack) : EReal :=
  cOne * Ideal.div ((total t t + total s s) - cTwo * total t s) cCount

/-- Divide each total, then combine. -/
def lossDivideEach (s t : Stack) : EReal :=
  cOne * ((Ideal.div (total t t) cCount + Ideal.div (total s s) cCount) - cTwo * Ideal.div (total t s) cCount)

/-- Division by the count distributes over the combination, for any three extended reals. -/
theorem div_count_distrib (a b c w : EReal) :
    Ideal.div ((a + b) - w * c) cCount = (Ideal.div a cCount + Ideal.div b cCount) - w * Ideal.div c cCount := by
  have hne : (16777216 : ℝ) ≠ 0 := by norm_num
  rw [cCount_eq, Ideal.div_coe hne, Ideal.div_coe hne, Ideal.div_coe hne, Ideal.div_coe hne]
  have h0 : (0 : EReal) ≤ ((1 / 16777216 : ℝ) : EReal) := EReal.coe_nonneg.mpr (by norm_num)
  have ht : ((1 / 16777216 : ℝ) : EReal) ≠ ⊤ := EReal.coe_ne_top _
  rw [EReal.sub_mul_of_nonneg_of_ne_top h0 ht, EReal.right_distrib_of_nonneg_of_ne_top h0 ht, mul_assoc]

/-- The two orders of the closing arithmetic agree. -/
theorem loss_eq (s t : Stack) : lossDivideOnce s t = lossDivideEach s t := by
  unfold lossDivideOnce lossDivideEach
  rw [div_count_distrib]

end Cert.Gram

end
-- ==== Proof.LibKeepdimsSums.lean ====
/-
  Sums along one axis of a matrix, and the broadcasts that undo a kept unit axis, read at an index given by coordinates.

  At the ideal values a float `vector.multi_reduction <add>` of an `[a, b]` matrix over its second axis is, at row `p`,
  the sum of that row's entries; over its first axis it is, at column `q`, the sum of that column's entries. A column
  `[a, 1]` broadcast to `[a, b]` repeats entry `(p, 0)` along row `p`; a single cell `[1, 1]` broadcast to `[a, b]` is that
  cell everywhere.
-/
import Idealize.ShloMosaic.Lib.ValueIdx
import Idealize.ShloMosaic.Lib.Pipeline.Value
import Idealize.ShloMosaic.PureOps.Ideal.Laws

noncomputable section

open scoped BigOperators

namespace Idealize.ShloMosaic.ValueIdx

variable {α : Type}

/-- An `[a, 1]` column broadcast to `[a, b]` reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A `[1, 1]` cell broadcast to `[a, b]` reads the cell at every index. -/
theorem broadcastTo_11_ab_apply {a b : ℕ} (v : (⟨2, ![1, 1]⟩ : Shape).Idx → α) (h : (⟨2, ![1, 1]⟩ : Shape).Broadcasts ⟨2, ![a, b]⟩)
    (p : Fin a) (q : Fin b) : broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

variable {φ : FTy}

/-- The sum of an `[a, b]` matrix over its second axis, at row `p`: the sum of the row. -/
theorem multiReduction_add_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ n : Fin b, src (ix2 p n) :=
  (Ideal.multiReduction_add_single src acc h hφ hacc (ix1 p)).trans
    (Finset.sum_congr rfl fun n _ => congrArg src (funext fun ax => Fin.ext (by
      match ax with
      | ⟨0, _⟩ => rfl
      | ⟨1, _⟩ => rfl)))

/-- The sum of an `[a, b]` matrix over its first axis, at column `q`: the sum of the column. -/
theorem multiReduction_add_cols {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ src acc h hφ hacc (ix1 q) = ∑ c : Fin a, src (ix2 c q) :=
  (Ideal.multiReduction_add_single src acc h hφ hacc (ix1 q)).trans
    (Finset.sum_congr rfl fun c _ => congrArg src (funext fun ax => Fin.ext (by
      match ax with
      | ⟨0, _⟩ => rfl
      | ⟨1, _⟩ => rfl)))

end Idealize.ShloMosaic.ValueIdx

end
-- ==== Proof.LibKeepdimsColumn.lean ====
/-
  A vector of `n` entries reshaped to a column `[n, 1]` (what a row reduction with keepdims leaves): the entry at
  `(k, 0)` of the column is entry `k` of the vector. Both sit at row-major position `k`.
-/
import Idealize.ShloMosaic.Lib.ValueIdx
import Idealize.ShloMosaic.Lib.Pipeline.Value

namespace Idealize.ShloMosaic.ValueIdx

variable {α : Type}

/-- An `[n]` array cast to `[n, 1]` reads, at `(k, u)`, the operand at `k`, whatever the unit coordinate `u`.
    (With `n = 1` this is also the cast `[1] → [1, 1]`.) -/
theorem shapeCast_a_a1_apply {n : ℕ} (x : (⟨1, ![n]⟩ : Shape).Idx → α) (h : (⟨1, ![n]⟩ : Shape).ShapeCasts ⟨2, ![n, 1]⟩)
    (k : Fin n) (u : Fin 1) : shapeCast ⟨2, ![n, 1]⟩ x h (ix2 k u) = x (ix1 k) :=
  shapeCast_apply x h _ _ (by
    have hu : u.val = 0 := by omega
    rw [Shape.rowMajor_val_two, Shape.rowMajor_val_one]
    show k.val = k.val * 1 + u.val
    rw [hu, Nat.mul_one, Nat.add_zero])

end Idealize.ShloMosaic.ValueIdx
-- ==== Proof.BlockValue.lean ====
/-
  What the kernel body computes from one point's two input blocks, at the ideal values.

  A block is one member of a stack: a [1, 512, 1024] array, read as a 512 x 1024 matrix. The body divides every row by
  its floored Euclidean length (the narrowing to 16 bits is the identity at the ideal values), multiplies the normalized
  matrix by a transposed normalized matrix with a zero accumulator (so entry (c, d) is the inner product of row c of the
  left factor with row d of the right one), squares the product entry by entry, adds each row up and then the 512 row
  sums, and spreads the one number over an [8, 128] tile. Hence every entry of the tile is the Gram ENERGY of the two
  blocks.
-/
import proofs.«106279_j33758442947077_1_alg».proof.Proof.Gen.KernelIdeal.Skeleton
import proofs.«106279_j33758442947077_1_alg».proof.Proof.GramEnergy
import proofs.«106279_j33758442947077_1_alg».proof.Proof.LibKeepdimsSums
import proofs.«106279_j33758442947077_1_alg».proof.Proof.LibKeepdimsColumn
import Idealize.ShloMosaic.Lib.ValueLayout
import Idealize.ShloMosaic.PureOps.Ideal.Laws

noncomputable section

open scoped BigOperators

namespace Cert.KernelIdeal.Block

open Idealize.ShloMosaic Idealize.ShloMosaic.ValueIdx Cert.KernelIdeal Cert.KernelIdeal.Gen Cert.Gram

/-- A [1, 512, 1024] block as a matrix. -/
def matOf (v : Vec Ideal S1x512x1024 .f32) : Mat := fun c n => v (ix3 (0 : Fin 1) c n)

/-- The first normalized matrix (of the block loaded first), entry by entry. -/
theorem unit_first (v0 : Vec Ideal S1x512x1024 .f32) (c : Fin 512) (n : Fin 1024) :
    k0_pay4 (F := Ideal) v0 (ix2 c n) = unitRow (matOf v0) c n := by
  unfold k0_pay4
  show Ideal.div (shapeCast S512x1024 v0 shapeCasts_S1x512x1024_S512x1024 (ix2 c n)) (broadcastTo S512x1024 _ broadcasts_S512x1_S512x1024 (ix2 c n)) = _
  rw [shapeCast_1ab_ab_apply, broadcastTo_a1_ab_apply]
  show Ideal.div _ (max (Ideal.sqrt (shapeCast S512x1 _ shapeCasts_S512_S512x1 (ix2 c (0 : Fin 1)))) (Ideal.ofBits .f32 0x2B8CBCCC#32)) = _
  rw [shapeCast_a_a1_apply]
  refine congrArg (fun z => Ideal.div (v0 (ix3 (0 : Fin 1) c n)) (max (Ideal.sqrt z) (Ideal.ofBits .f32 0x2B8CBCCC#32))) ?_
  refine (multiReduction_add_rows _ 0x00000000#32 reduces_S512x1024_S512 (.inl rfl) rfl c).trans ?_
  refine Finset.sum_congr rfl fun k _ => ?_
  show shapeCast S512x1024 v0 shapeCasts_S1x512x1024_S512x1024 (ix2 c k) * shapeCast S512x1024 v0 shapeCasts_S1x512x1024_S512x1024 (ix2 c k) = _
  rw [shapeCast_1ab_ab_apply]
  rfl

/-- The second normalized matrix (of the block loaded second), entry by entry. -/
theorem unit_second (v2 : Vec Ideal S1x512x1024 .f32) (c : Fin 512) (n : Fin 1024) :
    k0_pay5 (F := Ideal) v2 (ix2 c n) = unitRow (matOf v2) c n := by
  unfold k0_pay5
  show Ideal.div (shapeCast S512x1024 v2 shapeCasts_S1x512x1024_S512x1024 (ix2 c n)) (broadcastTo S512x1024 _ broadcasts_S512x1_S512x1024 (ix2 c n)) = _
  rw [shapeCast_1ab_ab_apply, broadcastTo_a1_ab_apply]
  show Ideal.div _ (max (Ideal.sqrt (shapeCast S512x1 _ shapeCasts_S512_S512x1 (ix2 c (0 : Fin 1)))) (Ideal.ofBits .f32 0x2B8CBCCC#32)) = _
  rw [shapeCast_a_a1_apply]
  refine congrArg (fun z => Ideal.div (v2 (ix3 (0 : Fin 1) c n)) (max (Ideal.sqrt z) (Ideal.ofBits .f32 0x2B8CBCCC#32))) ?_
  refine (multiReduction_add_rows _ 0x00000000#32 reduces_S512x1024_S512 (.inl rfl) rfl c).trans ?_
  refine Finset.sum_congr rfl fun k _ => ?_
  show shapeCast S512x1024 v2 shapeCasts_S1x512x1024_S512x1024 (ix2 c k) * shapeCast S512x1024 v2 shapeCasts_S1x512x1024_S512x1024 (ix2 c k) = _
  rw [shapeCast_1ab_ab_apply]
  rfl

/-! ## The product with a transposed factor -/

theorem lhs_axis0 (i : S512x512.Idx) (q : dot_S512x1024_S1024x512_S512x512_1_0_0_1_n_n.contr.Idx) :
    (dot_S512x1024_S1024x512_S512x512_1_0_0_1_n_n.lhsIdx i q 0).val = (i 0).val := by
  unfold DotDims.lhsIdx
  rw [dif_neg (show ¬(0 : Fin S512x1024.rank) ∈ dot_S512x1024_S1024x512_S512x512_1_0_0_1_n_n.lhsBatch by decide), dif_pos (show (0 : Fin S512x1024.rank) ∈ dot_S512x1024_S1024x512_S512x512_1_0_0_1_n_n.lhsNonContracting by decide)]
  rfl
theorem lhs_axis1 (i : S512x512.Idx) (q : dot_S512x1024_S1024x512_S512x512_1_0_0_1_n_n.contr.Idx) :
    (dot_S512x1024_S1024x512_S512x512_1_0_0_1_n_n.lhsIdx i q 1).val = (q ⟨0, by decide⟩).val :=
  dot_S512x1024_S1024x512_S512x512_1_0_0_1_n_n.lhsIdx_val_of_single rfl i q
theorem rhs_axis0 (i : S512x512.Idx) (q : dot_S512x1024_S1024x512_S512x512_1_0_0_1_n_n.contr.Idx) :
    (dot_S512x1024_S1024x512_S512x512_1_0_0_1_n_n.rhsIdx i q 0).val = (q ⟨0, by decide⟩).val :=
  dot_S512x1024_S1024x512_S512x512_1_0_0_1_n_n.rhsIdx_val_of_single rfl i q
theorem rhs_axis1 (i : S512x512.Idx) (q : dot_S512x1024_S1024x512_S512x512_1_0_0_1_n_n.contr.Idx) :
    (dot_S512x1024_S1024x512_S512x512_1_0_0_1_n_n.rhsIdx i q 1).val = (i 1).val := by
  unfold DotDims.rhsIdx
  rw [dif_neg (show ¬(1 : Fin S1024x512.rank) ∈ dot_S512x1024_S1024x512_S512x512_1_0_0_1_n_n.rhsBatch by decide), dif_pos (show (1 : Fin S1024x512.rank) ∈ dot_S512x1024_S1024x512_S512x512_1_0_0_1_n_n.rhsNonContracting by decide)]
  rfl

/-- Entry (c, d) of the product of `A` with the transpose of `B`, from the zero accumulator: the inner product of row
    `c` of `A` with row `d` of `B`. -/
theorem product_entry (A B : FVec Ideal S512x1024 .bf16) (c d : Fin 512) :
    matmul dot_S512x1024_S1024x512_S512x512_1_0_0_1_n_n none A (transpose S1024x512 [1, 0] B transposes_S512x1024_p1_0_S1024x512)
        (constant S512x512 .f32 0x00000000#32) (ix2 c d)
      = ∑ k : Fin 1024, A (ix2 c k) * B (ix2 d k) := by
  simp only [matmul]
  rw [Ideal.matmul_constant_zero_apply, ← Equiv.sum_comp (ValueIdx.contrEquiv1 dot_S512x1024_S1024x512_S512x512_1_0_0_1_n_n 1024 rfl rfl).symm]
  refine Finset.sum_congr rfl fun k _ => ?_
  have hk := ValueIdx.contrEquiv1_symm_val dot_S512x1024_S1024x512_S512x512_1_0_0_1_n_n 1024 rfl rfl k
  have el : dot_S512x1024_S1024x512_S512x512_1_0_0_1_n_n.lhsIdx (ix2 c d) ((ValueIdx.contrEquiv1 dot_S512x1024_S1024x512_S512x512_1_0_0_1_n_n 1024 rfl rfl).symm k) = ix2 c k := funext fun a => Fin.ext (by
    match a with
    | ⟨0, _⟩ => exact lhs_axis0 _ _
    | ⟨1, _⟩ => exact (lhs_axis1 _ _).trans hk)
  have er : dot_S512x1024_S1024x512_S512x512_1_0_0_1_n_n.rhsIdx (ix2 c d) ((ValueIdx.contrEquiv1 dot_S512x1024_S1024x512_S512x512_1_0_0_1_n_n 1024 rfl rfl).symm k) = ix2 k d := funext fun a => Fin.ext (by
    match a with
    | ⟨0, _⟩ => exact (rhs_axis0 _ _).trans hk
    | ⟨1, _⟩ => exact rhs_axis1 _ _)
  rw [el, er, transpose_ix2_apply]

/-! ## Squares added along rows, then down the column -/

/-- With `A` and `B` the normalized forms of `M` and `N`: the squared product's row `c`, added up and kept as a column entry. -/
theorem row_energy (A B : FVec Ideal S512x1024 .bf16) (M N : Mat)
    (hA : ∀ c n, A (ix2 c n) = unitRow M c n) (hB : ∀ c n, B (ix2 c n) = unitRow N c n) (c : Fin 512) (u : Fin 1) :
    shapeCast S512x1 (multiReduction .add [1] S512
        (mulf (matmul dot_S512x1024_S1024x512_S512x512_1_0_0_1_n_n none A (transpose S1024x512 [1, 0] B transposes_S512x1024_p1_0_S1024x512) (constant S512x512 .f32 0x00000000#32))
              (matmul dot_S512x1024_S1024x512_S512x512_1_0_0_1_n_n none A (transpose S1024x512 [1, 0] B transposes_S512x1024_p1_0_S1024x512) (constant S512x512 .f32 0x00000000#32)))
        0x00000000#32 reduces_S512x512_S512 (.inl rfl) rfl) shapeCasts_S512_S512x1 (ix2 c u)
      = ∑ d : Fin 512, gram M N c d * gram M N c d := by
  rw [shapeCast_a_a1_apply]
  refine (multiReduction_add_rows _ 0x00000000#32 reduces_S512x512_S512 (.inl rfl) rfl c).trans ?_
  refine Finset.sum_congr rfl fun d _ => ?_
  have e : matmul dot_S512x1024_S1024x512_S512x512_1_0_0_1_n_n none A (transpose S1024x512 [1, 0] B transposes_S512x1024_p1_0_S1024x512) (constant S512x512 .f32 0x00000000#32) (ix2 c d) = gram M N c d := by
    rw [product_entry]
    unfold gram
    exact Finset.sum_congr rfl fun k _ => by rw [hA, hB]
  show _ * _ = _
  rw [e]

/-- A 512-entry column added up and kept as a single cell. -/
theorem cell_sum (col : FVec Ideal S512x1 .f32) (u w : Fin 1) :
    shapeCast S1x1 (multiReduction .add [0] S1 col 0x00000000#32 reduces_S512x1_S1 (.inl rfl) rfl) shapeCasts_S1_S1x1 (ix2 u w)
      = ∑ c : Fin 512, col (ix2 c (0 : Fin 1)) := by
  rw [shapeCast_a_a1_apply]
  have hu : u = 0 := Subsingleton.elim _ _
  subst hu
  exact multiReduction_add_cols col 0x00000000#32 reduces_S512x1_S1 (.inl rfl) rfl (0 : Fin 1)

/-! ## The three single numbers -/

/-- The energy of the second block against itself. -/
theorem cell_second (v2 : Vec Ideal S1x512x1024 .f32) (u w : Fin 1) :
    k0_pay6 (F := Ideal) v2 (ix2 u w) = energy (matOf v2) (matOf v2) := by
  unfold k0_pay6
  refine (cell_sum _ u w).trans ?_
  unfold energy
  exact Finset.sum_congr rfl fun c _ => row_energy _ _ _ _ (unit_second v2) (unit_second v2) c 0

/-- The energy of the first block against itself. -/
theorem cell_first (v0 : Vec Ideal S1x512x1024 .f32) (u w : Fin 1) :
    k0_pay7 (F := Ideal) v0 (ix2 u w) = energy (matOf v0) (matOf v0) := by
  unfold k0_pay7
  refine (cell_sum _ u w).trans ?_
  unfold energy
  exact Finset.sum_congr rfl fun c _ => row_energy _ _ _ _ (unit_first v0) (unit_first v0) c 0

/-- The cross term's column of row energies: second block's rows against the first block's. -/
theorem column_cross (v0 v2 : Vec Ideal S1x512x1024 .f32) (c : Fin 512) (u : Fin 1) :
    k0_pay8 (F := Ideal) v0 v2 (ix2 c u) = ∑ d : Fin 512, gram (matOf v2) (matOf v0) c d * gram (matOf v2) (matOf v0) c d := by
  unfold k0_pay8
  exact row_energy _ _ _ _ (unit_second v2) (unit_first v0) c u

/-! ## The tiles -/

/-- A single cell spread over the [1, 8, 128] tile. -/
theorem tile_of_cell (cell : FVec Ideal S1x1 .f32) (u : Fin 1) (i : Fin 8) (j : Fin 128) :
    shapeCast S1x8x128 (broadcastTo S8x128 (shapeCast S1x1 cell shapeCasts_S1x1_S1x1) broadcasts_S1x1_S8x128) shapeCasts_S8x128_S1x8x128 (ix3 u i j)
      = cell (ix2 (0 : Fin 1) (0 : Fin 1)) := by
  rw [shapeCast_ab_1ab_apply, broadcastTo_11_ab_apply, shapeCast_self]

/-- Every entry of the first output tile: the energy of the second block against itself. -/
theorem tile_second (x1 : Vec Ideal S1x512x1024 .f32) (u : Fin 1) (i : Fin 8) (j : Fin 128) :
    k0_pay1 (F := Ideal) (k0_pay6 x1) (ix3 u i j) = energy (matOf x1) (matOf x1) := by
  unfold k0_pay1
  exact (tile_of_cell _ u i j).trans (cell_second x1 0 0)

/-- Every entry of the second output tile: the energy of the first block against itself. -/
theorem tile_first (x0 : Vec Ideal S1x512x1024 .f32) (u : Fin 1) (i : Fin 8) (j : Fin 128) :
    k0_pay2 (F := Ideal) (k0_pay7 x0) (ix3 u i j) = energy (matOf x0) (matOf x0) := by
  unfold k0_pay2
  exact (tile_of_cell _ u i j).trans (cell_first x0 0 0)

/-- Every entry of the third output tile: the energy of the second block against the first. -/
theorem tile_cross (x0 x1 : Vec Ideal S1x512x1024 .f32) (u : Fin 1) (i : Fin 8) (j : Fin 128) :
    k0_pay3 (F := Ideal) (k0_pay8 x0 x1) (ix3 u i j) = energy (matOf x1) (matOf x0) := by
  unfold k0_pay3
  refine (tile_of_cell _ u i j).trans ?_
  refine (cell_sum _ 0 0).trans ?_
  unfold energy
  exact Finset.sum_congr rfl fun c _ => column_cross x0 x1 c 0

end Cert.KernelIdeal.Block

end
-- ==== Proof.ArrayValue.lean ====
/-
  From the kernel's blocks to its three output arrays.

  The grid has one point per member of the stack. At point t each input window's block is member t of its array, and
  each output window's [1, 8, 128] block is block t of a [64, 8, 128] array. So after the run, entry (b, i, j) of an output
  array is what point b wrote: the Gram energy of member b of the input stacks (second against second, first against
  first, second against first, for the three outputs in order), whatever i and j are.
-/
import proofs.«106279_j33758442947077_1_alg».proof.Proof.Gen.KernelIdeal.Frame
import proofs.«106279_j33758442947077_1_alg».proof.Proof.BlockValue
import Idealize.ShloMosaic.Lib.Pipeline.Value
import Idealize.ShloMosaic.Lib.Tactic

noncomputable section

open scoped BigOperators

open Idealize.ShloMosaic Idealize.ShloMosaic.TcCoe Idealize.SL.Sem Idealize.ShloMosaic.ValueIdx
open Idealize.ShloMosaic.Pipeline (Dat)

namespace Cert.KernelIdeal.ArrayValue

open Cert.KernelIdeal Cert.KernelIdeal.Gen Cert.KernelIdeal.Block Cert.Gram

variable (m : (ℓ : Loc nD τ sig) → Buf (Elt Ideal) ℓ) (ρ : Dev nD → PrngReg)

/-- The first input stack as the region finds it. -/
abbrev arrS (c : Dev nD) : Stack := V m c main_v0
/-- The second input stack as the region finds it. -/
abbrev arrT (c : Dev nD) : Stack := V m c main_v1

theorem hz : (![0, 0, 0] : Fin 3 → Nat) = fun _ => 0 := funext fun a => by fin_cases a <;> rfl

/-! ## The index maps, decided over the 64 points -/

theorem idx_in0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx_in1 : ∀ t : Fin cfg0.N, win0_1.index t (0 : Fin 3) = t.val ∧ win0_1.index t (1 : Fin 3) = 0 ∧ win0_1.index t (2 : Fin 3) = 0 :=
  (by decide +kernel : ∀ t : Fin grid0.N, _)
theorem idx_out2 : ∀ t : Fin cfg0.N, win0_2.index t (0 : Fin 3) = t.val ∧ win0_2.index t (1 : Fin 3) = 0 ∧ win0_2.index t (2 : Fin 3) = 0 :=
  (by decide +kernel : ∀ t : Fin grid0.N, _)
theorem idx_out3 : ∀ t : Fin cfg0.N, win0_3.index t (0 : Fin 3) = t.val ∧ win0_3.index t (1 : Fin 3) = 0 ∧ win0_3.index t (2 : Fin 3) = 0 :=
  (by decide +kernel : ∀ t : Fin grid0.N, _)
theorem idx_out4 : ∀ t : Fin cfg0.N, win0_4.index t (0 : Fin 3) = t.val ∧ win0_4.index t (1 : Fin 3) = 0 ∧ win0_4.index t (2 : Fin 3) = 0 :=
  (by decide +kernel : ∀ t : Fin grid0.N, _)

/-! ## An input block is a member of its stack -/

theorem iblk0_apply (c : Dev nD) (t : Fin cfg0.N) (b : Fin 64) (hb : b.val = t.val) (r : Fin 512) (n : Fin 1024) :
    (iblk m c 0 t : Vec Ideal S1x512x1024 .f32) (ix3 (0 : Fin 1) r n) = arrS m c (ix3 b r n) := by
  obtain ⟨e0, e1, e2⟩ := idx_in0 t
  unfold iblk
  rw [View.read_apply]
  show V m c main_v0 _ = V m c main_v0 _
  congr 1
  funext a
  apply Fin.ext
  match a with
  | ⟨0, _⟩ => show win0_0.index t 0 * 1 + 1 * 0 = b.val; rw [e0, hb]; omega
  | ⟨1, _⟩ => show win0_0.index t 1 * 512 + 1 * r.val = r.val; rw [e1]; omega
  | ⟨2, _⟩ => show win0_0.index t 2 * 1024 + 1 * n.val = n.val; rw [e2]; omega

theorem iblk1_apply (c : Dev nD) (t : Fin cfg0.N) (b : Fin 64) (hb : b.val = t.val) (r : Fin 512) (n : Fin 1024) :
    (iblk m c 1 t : Vec Ideal S1x512x1024 .f32) (ix3 (0 : Fin 1) r n) = arrT m c (ix3 b r n) := by
  obtain ⟨e0, e1, e2⟩ := idx_in1 t
  unfold iblk
  rw [View.read_apply]
  show V m c main_v1 _ = V m c main_v1 _
  congr 1
  funext a
  apply Fin.ext
  match a with
  | ⟨0, _⟩ => show win0_1.index t 0 * 1 + 1 * 0 = b.val; rw [e0, hb]; omega
  | ⟨1, _⟩ => show win0_1.index t 1 * 512 + 1 * r.val = r.val; rw [e1]; omega
  | ⟨2, _⟩ => show win0_1.index t 2 * 1024 + 1 * n.val = n.val; rw [e2]; omega

/-- The first window's block at point t, as a matrix, is member t of the first stack. -/
theorem mat_iblk0 (c : Dev nD) (t : Fin cfg0.N) (b : Fin 64) (hb : b.val = t.val) :
    matOf (iblk m c 0 t : Vec Ideal S1x512x1024 .f32) = slab (arrS m c) b :=
  funext fun r => funext fun n => iblk0_apply m c t b hb r n
/-- The second window's block at point t, as a matrix, is member t of the second stack. -/
theorem mat_iblk1 (c : Dev nD) (t : Fin cfg0.N) (b : Fin 64) (hb : b.val = t.val) :
    matOf (iblk m c 1 t : Vec Ideal S1x512x1024 .f32) = slab (arrT m c) b :=
  funext fun r => funext fun n => iblk1_apply m c t b hb r n

/-! ## A tile entry, at an index of the literal tile shape -/

theorem tile2_at (x1 : Vec Ideal S1x512x1024 .f32) (j : S1x8x128.Idx) :
    k0_pay1 (F := Ideal) (k0_pay6 x1) j = energy (matOf x1) (matOf x1) := by
  obtain ⟨u, i, k, rfl⟩ : ∃ (u : Fin 1) (i : Fin 8) (k : Fin 128), j = ix3 u i k := ⟨j 0, j 1, j 2, eq_ix3 j⟩
  exact tile_second x1 u i k
theorem tile3_at (x0 : Vec Ideal S1x512x1024 .f32) (j : S1x8x128.Idx) :
    k0_pay2 (F := Ideal) (k0_pay7 x0) j = energy (matOf x0) (matOf x0) := by
  obtain ⟨u, i, k, rfl⟩ : ∃ (u : Fin 1) (i : Fin 8) (k : Fin 128), j = ix3 u i k := ⟨j 0, j 1, j 2, eq_ix3 j⟩
  exact tile_first x0 u i k
theorem tile4_at (x0 x1 : Vec Ideal S1x512x1024 .f32) (j : S1x8x128.Idx) :
    k0_pay3 (F := Ideal) (k0_pay8 x0 x1) j = energy (matOf x1) (matOf x0) := by
  obtain ⟨u, i, k, rfl⟩ : ∃ (u : Fin 1) (i : Fin 8) (k : Fin 128), j = ix3 u i k := ⟨j 0, j 1, j 2, eq_ix3 j⟩
  exact tile_cross x0 x1 u i k

/-! ## The three output arrays after the run -/

/-- Entry (b, i, j) of the first output: member b of the second stack against itself. -/
abbrev outTT (c : Dev nD) : Buf (Elt Ideal) ((c : Thread nD τ).loc main_v2_0) :=
  fun i => energy (slab (arrT m c) (i 0)) (slab (arrT m c) (i 0))
/-- Entry (b, i, j) of the second output: member b of the first stack against itself. -/
abbrev outSS (c : Dev nD) : Buf (Elt Ideal) ((c : Thread nD τ).loc main_v2_1) :=
  fun i => energy (slab (arrS m c) (i 0)) (slab (arrS m c) (i 0))
/-- Entry (b, i, j) of the third output: member b of the second stack against member b of the first. -/
abbrev outTS (c : Dev nD) : Buf (Elt Ideal) ((c : Thread nD τ).loc main_v2_2) :=
  fun i => energy (slab (arrT m c) (i 0)) (slab (arrS m c) (i 0))

/-- What point t writes back through the first output window is block t of `outTT`. -/
theorem flushed2_eq (c : Dev nD) (t : Fin cfg0.N) :
    (dats m 0 c).flushed 2 t = ((cfg0.win 2).blk t).view.read (Elt Ideal) (outTT m c) := by
  show (cfg0.win 2).cut (grid0.coords t) ((dats m 0 c).after 2 t) = _
  rw [after0_2]
  unfold out0_2
  rw [View.canon_unit_zero hz]
  simp only [View.ld_unit_zero (S := S1x512x1024) hz]
  obtain ⟨e0, e1, e2⟩ := idx_out2 t
  funext j
  show k0_pay1 (F := Ideal) (k0_pay6 (iblk m c 1 t)) j = outTT m c (((cfg0.win 2).blk t).view.emb j)
  refine (tile2_at (iblk m c 1 t) j).trans ?_
  have hb : ((((cfg0.win 2).blk t).view.emb j) 0).val = t.val := by
    show win0_2.index t 0 * 1 + 1 * (j 0).val = t.val
    have hj : (j 0).val < 1 := (j 0).isLt
    rw [e0]; omega
  show _ = energy (slab (arrT m c) ((((cfg0.win 2).blk t).view.emb j) 0)) (slab (arrT m c) ((((cfg0.win 2).blk t).view.emb j) 0))
  rw [mat_iblk1 m c t _ hb]

theorem flushed3_eq (c : Dev nD) (t : Fin cfg0.N) :
    (dats m 0 c).flushed 3 t = ((cfg0.win 3).blk t).view.read (Elt Ideal) (outSS m c) := by
  show (cfg0.win 3).cut (grid0.coords t) ((dats m 0 c).after 3 t) = _
  rw [after0_3]
  unfold out0_3
  rw [View.canon_unit_zero hz]
  simp only [View.ld_unit_zero (S := S1x512x1024) hz]
  obtain ⟨e0, e1, e2⟩ := idx_out3 t
  funext j
  show k0_pay2 (F := Ideal) (k0_pay7 (iblk m c 0 t)) j = outSS m c (((cfg0.win 3).blk t).view.emb j)
  refine (tile3_at (iblk m c 0 t) j).trans ?_
  have hb : ((((cfg0.win 3).blk t).view.emb j) 0).val = t.val := by
    show win0_3.index t 0 * 1 + 1 * (j 0).val = t.val
    have hj : (j 0).val < 1 := (j 0).isLt
    rw [e0]; omega
  show _ = energy (slab (arrS m c) ((((cfg0.win 3).blk t).view.emb j) 0)) (slab (arrS m c) ((((cfg0.win 3).blk t).view.emb j) 0))
  rw [mat_iblk0 m c t _ hb]

theorem flushed4_eq (c : Dev nD) (t : Fin cfg0.N) :
    (dats m 0 c).flushed 4 t = ((cfg0.win 4).blk t).view.read (Elt Ideal) (outTS m c) := by
  show (cfg0.win 4).cut (grid0.coords t) ((dats m 0 c).after 4 t) = _
  rw [after0_4]
  unfold out0_4
  rw [View.canon_unit_zero hz]
  simp only [View.ld_unit_zero (S := S1x512x1024) hz]
  obtain ⟨e0, e1, e2⟩ := idx_out4 t
  funext j
  show k0_pay3 (F := Ideal) (k0_pay8 (iblk m c 0 t) (iblk m c 1 t)) j = outTS m c (((cfg0.win 4).blk t).view.emb j)
  refine (tile4_at (iblk m c 0 t) (iblk m c 1 t) j).trans ?_
  have hb : ((((cfg0.win 4).blk t).view.emb j) 0).val = t.val := by
    show win0_4.index t 0 * 1 + 1 * (j 0).val = t.val
    have hj : (j 0).val < 1 := (j 0).isLt
    rw [e0]; omega
  show _ = energy (slab (arrT m c) ((((cfg0.win 4).blk t).view.emb j) 0)) (slab (arrS m c) ((((cfg0.win 4).blk t).view.emb j) 0))
  rw [mat_iblk1 m c t _ hb, mat_iblk0 m c t _ hb]

/-! ## The blocks tile the arrays -/

theorem mem_blk2 (t : Fin cfg0.N) (i : S64x8x128.Idx) :
    i ∈ ((cfg0.win 2).blk t).view.set ↔ ∀ a : Fin 3, win0_2.index t a * S1x8x128.size a ≤ (i a).val ∧ (i a).val < win0_2.index t a * S1x8x128.size a + S1x8x128.size a := by
  show i ∈ ((View.whole main_v2_0).slice (win0_2.rect t)).set ↔ _
  rw [View.set_slice_whole, Rect.mem_set_unit]
  exact Iff.rfl
theorem mem_blk3 (t : Fin cfg0.N) (i : S64x8x128.Idx) :
    i ∈ ((cfg0.win 3).blk t).view.set ↔ ∀ a : Fin 3, win0_3.index t a * S1x8x128.size a ≤ (i a).val ∧ (i a).val < win0_3.index t a * S1x8x128.size a + S1x8x128.size a := by
  show i ∈ ((View.whole main_v2_1).slice (win0_3.rect t)).set ↔ _
  rw [View.set_slice_whole, Rect.mem_set_unit]
  exact Iff.rfl
theorem mem_blk4 (t : Fin cfg0.N) (i : S64x8x128.Idx) :
    i ∈ ((cfg0.win 4).blk t).view.set ↔ ∀ a : Fin 3, win0_4.index t a * S1x8x128.size a ≤ (i a).val ∧ (i a).val < win0_4.index t a * S1x8x128.size a + S1x8x128.size a := by
  show i ∈ ((View.whole main_v2_2).slice (win0_4.rect t)).set ↔ _
  rw [View.set_slice_whole, Rect.mem_set_unit]
  exact Iff.rfl

/-- Index (b, i, j) lies in point b's block. -/
theorem cover2 (i : S64x8x128.Idx) : ∃ t : Fin cfg0.N, (cfg0.win 2).flush t = true ∧ i ∈ ((cfg0.win 2).blk t).view.set := by
  have hN : cfg0.N = 64 := N_0
  have h0 : (i 0).val < 64 := (i 0).isLt
  have h1 : (i 1).val < 8 := (i 1).isLt
  have h2 : (i 2).val < 128 := (i 2).isLt
  refine ⟨⟨(i 0).val, by omega⟩, flush0_2 _, ?_⟩
  obtain ⟨e0, e1, e2⟩ := idx_out2 ⟨(i 0).val, by omega⟩
  rw [mem_blk2]
  intro a
  match a with
  | ⟨0, _⟩ => show win0_2.index _ 0 * 1 ≤ (i 0).val ∧ (i 0).val < win0_2.index _ 0 * 1 + 1; rw [e0]; show (i 0).val * 1 ≤ (i 0).val ∧ (i 0).val < (i 0).val * 1 + 1; omega
  | ⟨1, _⟩ => show win0_2.index _ 1 * 8 ≤ (i 1).val ∧ (i 1).val < win0_2.index _ 1 * 8 + 8; rw [e1]; omega
  | ⟨2, _⟩ => show win0_2.index _ 2 * 128 ≤ (i 2).val ∧ (i 2).val < win0_2.index _ 2 * 128 + 128; rw [e2]; omega
theorem cover3 (i : S64x8x128.Idx) : ∃ t : Fin cfg0.N, (cfg0.win 3).flush t = true ∧ i ∈ ((cfg0.win 3).blk t).view.set := by
  have hN : cfg0.N = 64 := N_0
  have h0 : (i 0).val < 64 := (i 0).isLt
  have h1 : (i 1).val < 8 := (i 1).isLt
  have h2 : (i 2).val < 128 := (i 2).isLt
  refine ⟨⟨(i 0).val, by omega⟩, flush0_3 _, ?_⟩
  obtain ⟨e0, e1, e2⟩ := idx_out3 ⟨(i 0).val, by omega⟩
  rw [mem_blk3]
  intro a
  match a with
  | ⟨0, _⟩ => show win0_3.index _ 0 * 1 ≤ (i 0).val ∧ (i 0).val < win0_3.index _ 0 * 1 + 1; rw [e0]; show (i 0).val * 1 ≤ (i 0).val ∧ (i 0).val < (i 0).val * 1 + 1; omega
  | ⟨1, _⟩ => show win0_3.index _ 1 * 8 ≤ (i 1).val ∧ (i 1).val < win0_3.index _ 1 * 8 + 8; rw [e1]; omega
  | ⟨2, _⟩ => show win0_3.index _ 2 * 128 ≤ (i 2).val ∧ (i 2).val < win0_3.index _ 2 * 128 + 128; rw [e2]; omega
theorem cover4 (i : S64x8x128.Idx) : ∃ t : Fin cfg0.N, (cfg0.win 4).flush t = true ∧ i ∈ ((cfg0.win 4).blk t).view.set := by
  have hN : cfg0.N = 64 := N_0
  have h0 : (i 0).val < 64 := (i 0).isLt
  have h1 : (i 1).val < 8 := (i 1).isLt
  have h2 : (i 2).val < 128 := (i 2).isLt
  refine ⟨⟨(i 0).val, by omega⟩, flush0_4 _, ?_⟩
  obtain ⟨e0, e1, e2⟩ := idx_out4 ⟨(i 0).val, by omega⟩
  rw [mem_blk4]
  intro a
  match a with
  | ⟨0, _⟩ => show win0_4.index _ 0 * 1 ≤ (i 0).val ∧ (i 0).val < win0_4.index _ 0 * 1 + 1; rw [e0]; show (i 0).val * 1 ≤ (i 0).val ∧ (i 0).val < (i 0).val * 1 + 1; omega
  | ⟨1, _⟩ => show win0_4.index _ 1 * 8 ≤ (i 1).val ∧ (i 1).val < win0_4.index _ 1 * 8 + 8; rw [e1]; omega
  | ⟨2, _⟩ => show win0_4.index _ 2 * 128 ≤ (i 2).val ∧ (i 2).val < win0_4.index _ 2 * 128 + 128; rw [e2]; omega

/-- So each output array ends holding its energies, member by member. -/
theorem final2 (c : Dev nD) : (dats m 0 c).arrAt 2 cfg0.N = outTT m c :=
  (dats m 0 c).arrAt_eq_of_cover 2 (outTT m c) (fun t _ => flushed2_eq m c t) cover2
theorem final3 (c : Dev nD) : (dats m 0 c).arrAt 3 cfg0.N = outSS m c :=
  (dats m 0 c).arrAt_eq_of_cover 3 (outSS m c) (fun t _ => flushed3_eq m c t) cover3
theorem final4 (c : Dev nD) : (dats m 0 c).arrAt 4 cfg0.N = outTS m c :=
  (dats m 0 c).arrAt_eq_of_cover 4 (outTS m c) (fun t _ => flushed4_eq m c t) cover4

end Cert.KernelIdeal.ArrayValue

end
-- ==== Proof.LibSumIdx1.lean ====
/-
  A sum over the index set of a rank-1 array is the sum over its one coordinate.
-/
import Idealize.ShloMosaic.Lib.ValueIdx

noncomputable section

open scoped BigOperators

namespace Idealize.ShloMosaic.ValueIdx

/-- A rank-1 index set is its coordinate's range … -/
def idxEquiv1 {n : Nat} : (⟨1, ![n]⟩ : Shape).Idx ≃ Fin n where
  toFun i := i 0
  invFun p := ix1 p
  left_inv i := (eq_ix1 i).symm
  right_inv _ := rfl

/-- … so a sum over it is the sum over the coordinate, in any commutative monoid. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

end Idealize.ShloMosaic.ValueIdx

end
-- ==== Proof.TailValue.lean ====
/-
  The host operations after the kernel, and the kernel program's run read as a value.

  From each output array the host keeps entry (b, 0, 0) of every member b, adds the 64 kept numbers (from zero), and
  combines the three sums: (first + second - 2 * third) / 2^24, times 1. The kept entry of member b is that member's
  Gram energy, so each sum is a TOTAL and the program's one result is the specification's "combine first, divide once"
  form, of the two argument arrays reshaped to stacks of 64 matrices.
-/
import proofs.«106279_j33758442947077_1_alg».proof.Proof.ArrayValue
import Idealize.ShloMosaic.Lib.StableHlo.Run
import Idealize.ShloMosaic.Lib.IdealHost
import proofs.«106279_j33758442947077_1_alg».proof.Proof.LibSumIdx1

noncomputable section

open scoped BigOperators

open Idealize.ShloMosaic Idealize.ShloMosaic.TcCoe Idealize.SL.Sem Idealize.ShloMosaic.ValueIdx Idealize.ShloMosaic.StableHlo
open Idealize.ShloMosaic.Pipeline (Dat)

namespace Cert.KernelIdeal.TailValue

open Cert.KernelIdeal Cert.KernelIdeal.Gen Cert.KernelIdeal.Block Cert.Gram Cert.KernelIdeal.ArrayValue

variable (m : (ℓ : Loc nD τ sig) → Buf (Elt Ideal) ℓ) (ρ : Dev nD → PrngReg)

/-- The host's sum, from zero, of entry (b, 0, 0) over the 64 members of a [64, 8, 128] array. -/
theorem first_cells_sum (A : FVec Ideal S64x8x128 .f32) (j : S_.Idx) :
    Host.reduceAdd (F := Ideal) (shapeCast S64 (extractStridedSlice S64x1x1 ![0, 0, 0] A slices_S64x8x128_S64x1x1_0_0_0) shapeCasts_S64x1x1_S64)
      (constant (F := Ideal) S_ .f32 0x00000000#32) reducesTo_S64_S_d0 h_S_ j = ∑ b : Fin 64, A (ix3 b (0 : Fin 8) (0 : Fin 128)) := by
  simp only [Host.reduceAdd, Ideal.hostReduceAdd_def]
  rw [Ideal.hostReduceAdd_total reducesTo_S64_S_d0 (fun b => b.elim0)]
  show Ideal.ofBits .f32 0x00000000#32 + _ = _
  rw [Ideal.ofBits_zero_f32, zero_add, sum_idx1]
  refine Finset.sum_congr rfl fun b _ => ?_
  refine (shapeCast_apply _ shapeCasts_S64x1x1_S64 _ (ix3 b (0 : Fin 1) (0 : Fin 1)) (by
    rw [Shape.rowMajor_val_three, Shape.rowMajor_val_one]; show (b.val * 1 + 0) * 1 + 0 = b.val; omega)).trans ?_
  exact extractStridedSlice_apply _ A slices_S64x8x128_S64x1x1_0_0_0 (ix3 b (0 : Fin 1) (0 : Fin 1)) (ix3 b (0 : Fin 8) (0 : Fin 128)) (fun a => by
    match a with
    | ⟨0, _⟩ => show b.val = 0 + b.val; omega
    | ⟨1, _⟩ => rfl
    | ⟨2, _⟩ => rfl)

/-- The program's result after the host's closing arithmetic. -/
theorem tail_eq (c : Dev nD) :
    Pipeline.afterTail₀ cfgs (dats m) 0 (V0 m) [hostOps1] c main_v16 = (fun _ => lossDivideOnce (arrS m c) (arrT m c)) := by
  unfold Pipeline.afterTail₀
  show StableHlo.after hostOps1 _ (Proc.devRef .tc main_v16) = _
  after_results
  have e2 : Pipeline.withArrays (cfgs 0).spec c (V0 m c) (fun w => (dats m 0 c).arrAt w (cfgs 0).N) (Proc.devRef .tc main_v2_0) = outTT m c :=
    (Pipeline.withArrays_arr spec0 launch0.win.arr_inj c _ _ 2).trans (final2 m c)
  have e3 : Pipeline.withArrays (cfgs 0).spec c (V0 m c) (fun w => (dats m 0 c).arrAt w (cfgs 0).N) (Proc.devRef .tc main_v2_1) = outSS m c :=
    (Pipeline.withArrays_arr spec0 launch0.win.arr_inj c _ _ 3).trans (final3 m c)
  have e4 : Pipeline.withArrays (cfgs 0).spec c (V0 m c) (fun w => (dats m 0 c).arrAt w (cfgs 0).N) (Proc.devRef .tc main_v2_2) = outTS m c :=
    (Pipeline.withArrays_arr spec0 launch0.win.arr_inj c _ _ 4).trans (final4 m c)
  rw [e2, e3, e4]
  funext j
  show Ideal.ofBits .f32 0x3F800000#32 * Ideal.div
      ((Host.reduceAdd (F := Ideal) (shapeCast S64 (extractStridedSlice S64x1x1 ![0, 0, 0] (outTT m c) slices_S64x8x128_S64x1x1_0_0_0) shapeCasts_S64x1x1_S64) (constant (F := Ideal) S_ .f32 0x00000000#32) reducesTo_S64_S_d0 h_S_ j
        + Host.reduceAdd (F := Ideal) (shapeCast S64 (extractStridedSlice S64x1x1 ![0, 0, 0] (outSS m c) slices_S64x8x128_S64x1x1_0_0_0) shapeCasts_S64x1x1_S64) (constant (F := Ideal) S_ .f32 0x00000000#32) reducesTo_S64_S_d0 h_S_ j)
        - Ideal.ofBits .f32 0x40000000#32 * Host.reduceAdd (F := Ideal) (shapeCast S64 (extractStridedSlice S64x1x1 ![0, 0, 0] (outTS m c) slices_S64x8x128_S64x1x1_0_0_0) shapeCasts_S64x1x1_S64) (constant (F := Ideal) S_ .f32 0x00000000#32) reducesTo_S64_S_d0 h_S_ j)
      (Ideal.ofBits .f32 0x4B800000#32) = _
  rw [first_cells_sum, first_cells_sum, first_cells_sum]
  rfl

/-- The first stack as the region finds it is the first argument reshaped. -/
theorem arrS_eq (c : Dev nD) :
    arrS m c = shapeCast S64x512x1024 (m ((c : Thread nD τ).loc main_arg0)) shapeCasts_S64x512x32x32_S64x512x1024 := by
  show StableHlo.after hostOps0 (fun b => m (c, b)) (Proc.devRef .tc main_v0) = _
  after_results
  rfl
/-- The second stack as the region finds it is the second argument reshaped. -/
theorem arrT_eq (c : Dev nD) :
    arrT m c = shapeCast S64x512x1024 (m ((c : Thread nD τ).loc main_arg1)) shapeCasts_S64x512x32x32_S64x512x1024 := by
  show StableHlo.after hostOps0 (fun b => m (c, b)) (Proc.devRef .tc main_v1) = _
  after_results
  rfl

/-- Every weakly fair execution of the kernel program ends with its result at the specification's value of the two
    reshaped arguments, and the arguments unchanged. -/
theorem run : θ_run defs (onTc (τ := τ) (main (F := Ideal))) ⟨m, fun _ => 0, ρ⟩ fun r => ∀ c : Dev nD,
      r.2.mem ((c.tc : Thread nD τ).loc main_v16) = (fun _ => lossDivideOnce (arrS m c) (arrT m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v16 (Pipeline.mem_restRefs_of main_v16 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.TailValue

end
-- ==== Proof.LibSumIdx3.lean ====
/-
  A sum over the index set of a rank-3 array is the triple sum over its three coordinates, outermost axis first.
  The rank-3 companion of the rank-2 re-indexing: an index is exactly the triple of its coordinates.
-/
import Idealize.ShloMosaic.Lib.ValueIdx

noncomputable section

open scoped BigOperators

namespace Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates, in any commutative monoid. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Idealize.ShloMosaic.ValueIdx

end
-- ==== Proof.RefValue.lean ====
/-
  What the reference computes, at the ideal values, as the function of the two reshaped arguments that the
  specification names: each of its three Gram products is taken member by member over the whole stack and its squares
  are added over every (member, row, row) index at once, which is the TOTAL; each total is divided by the count before
  the three are combined.
-/
import proofs.«106279_j33758442947077_1_alg».proof.Proof.Gen.ReferenceIdeal.Read
import proofs.«106279_j33758442947077_1_alg».proof.Proof.GramEnergy
import proofs.«106279_j33758442947077_1_alg».proof.Proof.LibSumIdx3

noncomputable section

open scoped BigOperators

namespace Cert.ReferenceIdeal.RefValue

open Idealize.ShloMosaic Idealize.ShloMosaic.ValueIdx Cert.ReferenceIdeal Cert.ReferenceIdeal.Read Cert.Gram

/-- The argument arrays' type. -/
abbrev Arg := (⟨S64x512x32x32, .f32⟩ : BufTy).Contents (Elt Ideal)

/-- The first argument as a stack of 64 matrices. -/
abbrev stackS (x0 : Arg) : Stack := val_main_v0 (F := Ideal) x0
/-- The second argument as a stack of 64 matrices. -/
abbrev stackT (x1 : Arg) : Stack := val_main_v9 (F := Ideal) x1

theorem row_index (b : Fin 64) (c : Fin 512) (n k : Fin 1024) :
    idx_main_v2 (idx_main_v3 (idx_main_v7 (ix3 b c n))) k = ix3 b c k :=
  funext fun a => Fin.ext (by match a with | ⟨0, _⟩ => rfl | ⟨1, _⟩ => rfl | ⟨2, _⟩ => rfl)

theorem row_index' (b : Fin 64) (c : Fin 512) (n k : Fin 1024) :
    idx_main_v11 (idx_main_v12 (idx_main_v16 (ix3 b c n))) k = ix3 b c k :=
  funext fun a => Fin.ext (by match a with | ⟨0, _⟩ => rfl | ⟨1, _⟩ => rfl | ⟨2, _⟩ => rfl)

/-- The first argument's normalized stack, entry by entry. -/
theorem unit_s (x0 : Arg) (b : Fin 64) (c : Fin 512) (n : Fin 1024) :
    val_main_v8 (F := Ideal) x0 (ix3 b c n) = unitRow (slab (stackS x0) b) c n := by
  rw [val_main_v8_apply, val_main_v7_apply, val_main_v6_apply, val_main_v4_apply, val_main_v3_apply, val_main_v2_apply,
    val_main_v5_apply, val_main_cst_0_apply, val_main_cst_apply]
  simp only [val_main_v1_apply, row_index]
  show Ideal.div _ (max (Ideal.sqrt (Ideal.ofBits .f32 0x00000000#32 + _)) _) = _
  rw [Ideal.ofBits_zero_f32, zero_add]
  rfl

/-- The second argument's normalized stack, entry by entry. -/
theorem unit_t (x1 : Arg) (b : Fin 64) (c : Fin 512) (n : Fin 1024) :
    val_main_v17 (F := Ideal) x1 (ix3 b c n) = unitRow (slab (stackT x1) b) c n := by
  rw [val_main_v17_apply, val_main_v16_apply, val_main_v15_apply, val_main_v13_apply, val_main_v12_apply, val_main_v11_apply,
    val_main_v14_apply, val_main_cst_2_apply, val_main_cst_1_apply]
  simp only [val_main_v10_apply, row_index']
  show Ideal.div _ (max (Ideal.sqrt (Ideal.ofBits .f32 0x00000000#32 + _)) _) = _
  rw [Ideal.ofBits_zero_f32, zero_add]
  rfl

/-! ## The three Gram products over the whole stack -/

theorem left_index (b : Fin 64) (c d : Fin 512) (k : Fin 1024) : lidx_main_v18 (ix3 b c d) k = ix3 b c k :=
  funext fun a => Fin.ext (by match a with | ⟨0, _⟩ => rfl | ⟨1, _⟩ => rfl | ⟨2, _⟩ => rfl)
theorem right_index (b : Fin 64) (c d : Fin 512) (k : Fin 1024) : ridx_main_v18 (ix3 b c d) k = ix3 b d k :=
  funext fun a => Fin.ext (by match a with | ⟨0, _⟩ => rfl | ⟨1, _⟩ => rfl | ⟨2, _⟩ => rfl)

/-- The second argument against itself. -/
theorem gram_tt (x1 : Arg) (b : Fin 64) (c d : Fin 512) :
    val_main_v18 (F := Ideal) x1 (ix3 b c d) = gram (slab (stackT x1) b) (slab (stackT x1) b) c d := by
  rw [val_main_v18_apply]
  unfold gram
  refine Finset.sum_congr rfl fun k _ => ?_
  rw [left_index, right_index, unit_t, unit_t]

/-- The first argument against itself. -/
theorem gram_ss (x0 : Arg) (b : Fin 64) (c d : Fin 512) :
    val_main_v22 (F := Ideal) x0 (ix3 b c d) = gram (slab (stackS x0) b) (slab (stackS x0) b) c d := by
  rw [val_main_v22_apply]
  unfold gram
  refine Finset.sum_congr rfl fun k _ => ?_
  rw [show lidx_main_v22 (ix3 b c d) k = ix3 b c k from left_index b c d k,
    show ridx_main_v22 (ix3 b c d) k = ix3 b d k from right_index b c d k, unit_s, unit_s]

/-- The second argument against the first. -/
theorem gram_ts (x0 x1 : Arg) (b : Fin 64) (c d : Fin 512) :
    val_main_v27 (F := Ideal) x0 x1 (ix3 b c d) = gram (slab (stackT x1) b) (slab (stackS x0) b) c d := by
  rw [val_main_v27_apply]
  unfold gram
  refine Finset.sum_congr rfl fun k _ => ?_
  rw [show lidx_main_v27 (ix3 b c d) k = ix3 b c k from left_index b c d k,
    show ridx_main_v27 (ix3 b c d) k = ix3 b d k from right_index b c d k, unit_t, unit_s]

/-! ## The totals: every (member, row, row) index at once is member by member, row by row -/

theorem total_tt (x1 : Arg) (i : S_.Idx) : val_main_v20 (F := Ideal) x1 i = total (stackT x1) (stackT x1) := by
  rw [val_main_v20_apply, val_main_cst_3_apply]
  show Ideal.ofBits .f32 0x00000000#32 + _ = _
  rw [Ideal.ofBits_zero_f32, zero_add, sum_idx3]
  unfold total energy
  refine Finset.sum_congr rfl fun b _ => Finset.sum_congr rfl fun c _ => Finset.sum_congr rfl fun d _ => ?_
  show val_main_v18 (F := Ideal) x1 (ix3 b c d) * val_main_v18 (F := Ideal) x1 (ix3 b c d) = _
  rw [gram_tt]

theorem total_ss (x0 : Arg) (i : S_.Idx) : val_main_v24 (F := Ideal) x0 i = total (stackS x0) (stackS x0) := by
  rw [val_main_v24_apply, val_main_cst_5_apply]
  show Ideal.ofBits .f32 0x00000000#32 + _ = _
  rw [Ideal.ofBits_zero_f32, zero_add, sum_idx3]
  unfold total energy
  refine Finset.sum_congr rfl fun b _ => Finset.sum_congr rfl fun c _ => Finset.sum_congr rfl fun d _ => ?_
  show val_main_v22 (F := Ideal) x0 (ix3 b c d) * val_main_v22 (F := Ideal) x0 (ix3 b c d) = _
  rw [gram_ss]

theorem total_ts (x0 x1 : Arg) (i : S_.Idx) : val_main_v29 (F := Ideal) x0 x1 i = total (stackT x1) (stackS x0) := by
  rw [val_main_v29_apply, val_main_cst_7_apply]
  show Ideal.ofBits .f32 0x00000000#32 + _ = _
  rw [Ideal.ofBits_zero_f32, zero_add, sum_idx3]
  unfold total energy
  refine Finset.sum_congr rfl fun b _ => Finset.sum_congr rfl fun c _ => Finset.sum_congr rfl fun d _ => ?_
  show val_main_v27 (F := Ideal) x0 x1 (ix3 b c d) * val_main_v27 (F := Ideal) x0 x1 (ix3 b c d) = _
  rw [gram_ts]

/-- The reference's result: each total divided by the count, then combined. -/
theorem result_eq (x0 x1 : Arg) :
    val_main_v33 (F := Ideal) x0 x1 = fun _ => lossDivideEach (stackS x0) (stackT x1) := by
  funext i
  show Ideal.ofBits .f32 0x3F800000#32 * ((Ideal.div (val_main_v20 (F := Ideal) x1 i) (Ideal.ofBits .f32 0x4B800000#32)
      + Ideal.div (val_main_v24 (F := Ideal) x0 i) (Ideal.ofBits .f32 0x4B800000#32))
      - Ideal.ofBits .f32 0x40000000#32 * Ideal.div (val_main_v29 (F := Ideal) x0 x1 i) (Ideal.ofBits .f32 0x4B800000#32)) = _
  rw [total_tt, total_ss, total_ts]
  rfl

end Cert.ReferenceIdeal.RefValue

end
-- ==== Proof.lean ====
/-
  Both programs take two [64, 512, 32, 32] arrays, read each as a stack of 64 matrices of 512 rows and 1024 columns,
  divide every row by its Euclidean length (floored at a small positive constant), and for three pairs of stacks
  (second with second, first with first, second with first) add up the squares of all entries of the members' Gram
  matrices. They return 1 * (the first two sums minus twice the third, over 2^24).

  The kernel program adds the squares member by member inside a grid of 64 points, the host then adding the 64
  numbers and dividing the combination once; the reference adds over all (member, row, row) indices at once and
  divides each sum before combining. At the ideal values the two agree on every input: sums of extended reals may be
  regrouped freely, and division by 2^24 is multiplication by a non-negative real, which distributes over sums and
  differences of extended reals without any finiteness assumption. So the precondition is never opened.

  The three frames: the two kernel programs' by their generated frame certificates, the reference's by its generated
  run with the result dropped. The idealization rewrote nothing, so what it preserves is trivially true.
-/
import proofs.«106279_j33758442947077_1_alg».proof.Defs
import proofs.«106279_j33758442947077_1_alg».proof.Proof.Gen.Kernel
import proofs.«106279_j33758442947077_1_alg».proof.Proof.Gen.Kernel.Skeleton
import proofs.«106279_j33758442947077_1_alg».proof.Proof.Gen.Kernel.Launch
import proofs.«106279_j33758442947077_1_alg».proof.Proof.Gen.Kernel.Points
import proofs.«106279_j33758442947077_1_alg».proof.Proof.Gen.Kernel.Frame
import proofs.«106279_j33758442947077_1_alg».proof.Proof.Gen.KernelIdeal
import proofs.«106279_j33758442947077_1_alg».proof.Proof.Gen.KernelIdeal.Skeleton
import proofs.«106279_j33758442947077_1_alg».proof.Proof.Gen.KernelIdeal.Launch
import proofs.«106279_j33758442947077_1_alg».proof.Proof.Gen.KernelIdeal.Points
import proofs.«106279_j33758442947077_1_alg».proof.Proof.Gen.KernelIdeal.Frame
import proofs.«106279_j33758442947077_1_alg».proof.Proof.Gen.ReferenceIdeal
import proofs.«106279_j33758442947077_1_alg».proof.Proof.Gen.Pre_finite_inputs
import proofs.«106279_j33758442947077_1_alg».proof.Proof.Gen.ReferenceIdeal.Run
import proofs.«106279_j33758442947077_1_alg».proof.Proof.Gen.ReferenceIdeal.Read
import proofs.«106279_j33758442947077_1_alg».proof.Proof.GramEnergy
import proofs.«106279_j33758442947077_1_alg».proof.Proof.TailValue
import proofs.«106279_j33758442947077_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the two arguments, the kernel program's result is the "combine first, divide once"
    value of the reshaped arguments and the reference's the "divide each, then combine" value of the same stacks: one
    number, since division by 2^24 distributes. -/
theorem algebraic : Cert.algebraic_KernelIdeal_ReferenceIdeal := by
  intro m ρ m' ρ' _ hagree
  refine ⟨fun c => fun _ => Cert.Gram.lossDivideOnce (Cert.KernelIdeal.ArrayValue.arrS m c) (Cert.KernelIdeal.ArrayValue.arrT m c),
    Cert.KernelIdeal.TailValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, Cert.ReferenceIdeal.RefValue.result_eq, (hagree c).1, (hagree c).2]
  funext _
  show Cert.Gram.lossDivideEach _ _
    = Cert.Gram.lossDivideOnce (Cert.KernelIdeal.ArrayValue.arrS m c) (Cert.KernelIdeal.ArrayValue.arrT m c)
  rw [← Cert.Gram.loss_eq, Cert.KernelIdeal.TailValue.arrS_eq, Cert.KernelIdeal.TailValue.arrT_eq]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
